-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v31) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x2048x1600 : Shape := ⟨3, ![4, 2048, 1600]⟩
abbrev S1600x6400 : Shape := ⟨2, ![1600, 6400]⟩
abbrev S6400 : Shape := ⟨1, ![6400]⟩
abbrev S_ : Shape := ⟨0, ![]⟩

class Facts : Prop where
  bcast_S_S4x2048x1600 : S_.BroadcastsInDim S4x2048x1600 (![] : Fin 0 → Fin S4x2048x1600.rank)
  reducesTo_S4x2048x1600_S_d0_1_2 : S4x2048x1600.ReducesTo [0, 1, 2] S_
  h_S_ : 0 < S_.numel
  bcast_S_S1600x6400 : S_.BroadcastsInDim S1600x6400 (![] : Fin 0 → Fin S1600x6400.rank)
  reducesTo_S1600x6400_S_d0_1 : S1600x6400.ReducesTo [0, 1] S_
  bcast_S_S6400 : S_.BroadcastsInDim S6400 (![] : Fin 0 → Fin S6400.rank)
  reducesTo_S6400_S_d0 : S6400.ReducesTo [0] S_

variable [Facts]

def fn {F : FTy → Type} [FloatOps F] (main_arg0 : FVec F S4x2048x1600 .f32) (main_arg1 : FVec F S1600x6400 .f32) (main_arg2 : FVec F S6400 .f32) : IVec S_ 1 :=
  let main_v0 : FVec F S4x2048x1600 .f32 := Host.absf main_arg0
  let main_cst : FVec F S_ .f32 := constant S_ .f32 0x7F800000#32
  let main_v1 : FVec F S4x2048x1600 .f32 := broadcastInDim S4x2048x1600 ![] bcast_S_S4x2048x1600 main_cst
  let main_v2 : IVec S4x2048x1600 1 := cmpf .olt main_v0 main_v1
  let main_c : IVec S_ 1 := constantI S_ 1 1#1
  let main_v3 : IVec S_ 1 := (fun x v => Host.reduce IntOp.andi x v reducesTo_S4x2048x1600_S_d0_1_2 h_S_) main_v2 main_c
  let main_v4 : FVec F S1600x6400 .f32 := Host.absf main_arg1
  let main_cst_0 : FVec F S_ .f32 := constant S_ .f32 0x7F800000#32
  let main_v5 : FVec F S1600x6400 .f32 := broadcastInDim S1600x6400 ![] bcast_S_S1600x6400 main_cst_0
  let main_v6 : IVec S1600x6400 1 := cmpf .olt main_v4 main_v5
  let main_c_1 : IVec S_ 1 := constantI S_ 1 1#1
  let main_v7 : IVec S_ 1 := (fun x v => Host.reduce IntOp.andi x v reducesTo_S1600x6400_S_d0_1 h_S_) main_v6 main_c_1
  let main_v8 : IVec S_ 1 := andi main_v3 main_v7
  let main_v9 : FVec F S6400 .f32 := Host.absf main_arg2
  let main_cst_2 : FVec F S_ .f32 := constant S_ .f32 0x7F800000#32
  let main_v10 : FVec F S6400 .f32 := broadcastInDim S6400 ![] bcast_S_S6400 main_cst_2
  let main_v11 : IVec S6400 1 := cmpf .olt main_v9 main_v10
  let main_c_3 : IVec S_ 1 := constantI S_ 1 1#1
  let main_v12 : IVec S_ 1 := (fun x v => Host.reduce IntOp.andi x v reducesTo_S6400_S_d0 h_S_) main_v11 main_c_3
  let main_v13 : IVec S_ 1 := andi main_v8 main_v12
  main_v13
-- ==== Kernel.lean ====
abbrev S4x2048x1600 : Shape := ⟨3, ![4, 2048, 1600]⟩
abbrev S1600x6400 : Shape := ⟨2, ![1600, 6400]⟩
abbrev S6400 : Shape := ⟨1, ![6400]⟩
abbrev S200x6400 : Shape := ⟨2, ![200, 6400]⟩
abbrev S200 : Shape := ⟨1, ![200]⟩
abbrev S200x1 : Shape := ⟨2, ![200, 1]⟩
abbrev S1x6400 : Shape := ⟨2, ![1, 6400]⟩
abbrev S8192x1600 : Shape := ⟨2, ![8192, 1600]⟩
abbrev S8192x6400 : Shape := ⟨2, ![8192, 6400]⟩
abbrev S512x1600 : Shape := ⟨2, ![512, 1600]⟩
abbrev S1600x1280 : Shape := ⟨2, ![1600, 1280]⟩
abbrev S1x1280 : Shape := ⟨2, ![1, 1280]⟩
abbrev S512x1280 : Shape := ⟨2, ![512, 1280]⟩
abbrev S512 : Shape := ⟨1, ![512]⟩
abbrev S512x1 : Shape := ⟨2, ![512, 1]⟩
abbrev S4x2048x6400 : Shape := ⟨3, ![4, 2048, 6400]⟩

abbrev nBuf : Space → Nat
  | .hbm => 8
  | .vmem => 12
  | .smem => 0
  | _ => 0

abbrev bufTy : (tb : Table) → Fin (tcTables nBuf tb) → BufTy
  | .hbm, ⟨0, _⟩ => ⟨S4x2048x1600, .f32⟩
  | .hbm, ⟨1, _⟩ => ⟨S1600x6400, .f32⟩
  | .hbm, ⟨2, _⟩ => ⟨S6400, .f32⟩
  | .hbm, ⟨3, _⟩ => ⟨S1600x6400, .bf16⟩
  | .hbm, ⟨4, _⟩ => ⟨S1x6400, .f32⟩
  | .hbm, ⟨5, _⟩ => ⟨S8192x1600, .f32⟩
  | .hbm, ⟨6, _⟩ => ⟨S8192x6400, .f32⟩
  | .hbm, ⟨7, _⟩ => ⟨S4x2048x6400, .f32⟩
  | .local _ .vmem, ⟨0, _⟩ => ⟨S200x6400, .f32⟩
  | .local _ .vmem, ⟨1, _⟩ => ⟨S200x6400, .f32⟩
  | .local _ .vmem, ⟨2, _⟩ => ⟨S200x6400, .bf16⟩
  | .local _ .vmem, ⟨3, _⟩ => ⟨S200x6400, .bf16⟩
  | .local _ .vmem, ⟨4, _⟩ => ⟨S512x1600, .f32⟩
  | .local _ .vmem, ⟨5, _⟩ => ⟨S512x1600, .f32⟩
  | .local _ .vmem, ⟨6, _⟩ => ⟨S1600x1280, .bf16⟩
  | .local _ .vmem, ⟨7, _⟩ => ⟨S1600x1280, .bf16⟩
  | .local _ .vmem, ⟨8, _⟩ => ⟨S1x1280, .f32⟩
  | .local _ .vmem, ⟨9, _⟩ => ⟨S1x1280, .f32⟩
  | .local _ .vmem, ⟨10, _⟩ => ⟨S512x1280, .f32⟩
  | .local _ .vmem, ⟨11, _⟩ => ⟨S512x1280, .f32⟩
  | _, _ => ⟨S4x2048x1600, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc1_stg0_0 : Ref sig .tc := ⟨.vmem, 4, rfl⟩
abbrev cc1_stg0_1 : Ref sig .tc := ⟨.vmem, 5, rfl⟩
abbrev cc1_stg1_0 : Ref sig .tc := ⟨.vmem, 6, rfl⟩
abbrev cc1_stg1_1 : Ref sig .tc := ⟨.vmem, 7, rfl⟩
abbrev cc1_stg2_0 : Ref sig .tc := ⟨.vmem, 8, rfl⟩
abbrev cc1_stg2_1 : Ref sig .tc := ⟨.vmem, 9, rfl⟩
abbrev cc1_stg3_0 : Ref sig .tc := ⟨.vmem, 10, rfl⟩
abbrev cc1_stg3_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc1_sem0_0 : DmaSem sig := 4
abbrev cc1_sem0_1 : DmaSem sig := 5
abbrev cc1_sem1_0 : DmaSem sig := 6
abbrev cc1_sem1_1 : DmaSem sig := 7
abbrev cc1_sem2_0 : DmaSem sig := 8
abbrev cc1_sem2_1 : DmaSem sig := 9
abbrev cc1_sem3_0 : DmaSem sig := 10
abbrev cc1_sem3_1 : DmaSem sig := 11

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S200x6400 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S200x6400 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev grid1 : Pipeline.Grid := ⟨2, ![16, 5], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage1_0 : Fin 2 → Memref sig .tc .vmem S512x1600 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S1600x1280 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S1x1280 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![false, true]

abbrev stage1_3 : Fin 2 → Memref sig .tc .vmem S512x1280 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

class Facts₀ : Prop where
  inb_S200x6400_S200x6400_0_0 : ∀ a, (![0, 0] : Fin 2 → Nat) a + S200x6400.size a ≤ S200x6400.size a
  h_S200x6400 : 0 < S200x6400.numel
  reduces_S200x6400_S200 : S200x6400.Reduces [1] S200
  shapeCasts_S200_S200x1 : S200.ShapeCasts S200x1
  broadcasts_S200x1_S200x6400 : S200x1.Broadcasts S200x6400
  bitsLt_bf16_f32 : FTy.bits .bf16 < FTy.bits .f32
  packedbf16_S200x6400_S200x6400_0_0 : (Rect.unit (s := S200x6400) ![0, 0] S200x6400.size inb_S200x6400_S200x6400_0_0).PackedRows (EltTy.packing .bf16)
  shapeCasts_S6400_S1x6400 : S6400.ShapeCasts S1x6400
  shapeCasts_S4x2048x1600_S8192x1600 : S4x2048x1600.ShapeCasts S8192x1600
  inb_S512x1600_S512x1600_0_0 : ∀ a, (![0, 0] : Fin 2 → Nat) a + S512x1600.size a ≤ S512x1600.size a
  h_S512x1600 : 0 < S512x1600.numel
  shapeCasts_S512x1600_S512x1600 : S512x1600.ShapeCasts S512x1600
  reduces_S512x1600_S512 : S512x1600.Reduces [1] S512
  shapeCasts_S512_S512x1 : S512.ShapeCasts S512x1
  broadcasts_S512x1_S512x1600 : S512x1.Broadcasts S512x1600
  inb_S1600x1280_S1600x1280_0_0 : ∀ a, (![0, 0] : Fin 2 → Nat) a + S1600x1280.size a ≤ S1600x1280.size a
  h_S1600x1280 : 0 < S1600x1280.numel
  shapeCasts_S1600x1280_S1600x1280 : S1600x1280.ShapeCasts S1600x1280
  inb_S1x1280_S1x1280_0_0 : ∀ a, (![0, 0] : Fin 2 → Nat) a + S1x1280.size a ≤ S1x1280.size a
  h_S1x1280 : 0 < S1x1280.numel
  shapeCasts_S1x1280_S1x1280 : S1x1280.ShapeCasts S1x1280
  broadcasts_S1x1280_S512x1280 : S1x1280.Broadcasts S512x1280
  inb_S512x1280_S512x1280_0_0 : ∀ a, (![0, 0] : Fin 2 → Nat) a + S512x1280.size a ≤ S512x1280.size a
  h_S512x1280 : 0 < S512x1280.numel
  shapeCasts_S8192x6400_S4x2048x6400 : S8192x6400.ShapeCasts S4x2048x6400
  dot_S512x1600_S1600x1280_S512x1280_1_0_0_1_n_n_wf : DotDims.WF S512x1600 S1600x1280 S512x1280 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S200x6400.size a ≤ S1600x6400.size a
  hwx0_0 : ∀ i : grid0.Coords, EltTy.bits .f32 = 32 ∨ (Rect.block (s := S1600x6400) S200x6400.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S200x6400.size a ≤ S1600x6400.size a
  hwx0_1 : ∀ i : grid0.Coords, EltTy.bits .bf16 = 32 ∨ (Rect.block (s := S1600x6400) S200x6400.size (cc0_transform_1 i) (hinb0_1 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S512x1600.size a ≤ S8192x1600.size a
  hwx1_0 : ∀ i : grid1.Coords, EltTy.bits .f32 = 32 ∨ (Rect.block (s := S8192x1600) S512x1600.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1600x1280.size a ≤ S1600x6400.size a
  hwx1_1 : ∀ i : grid1.Coords, EltTy.bits .bf16 = 32 ∨ (Rect.block (s := S1600x6400) S1600x1280.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x1280.size a ≤ S1x6400.size a
  hwx1_2 : ∀ i : grid1.Coords, EltTy.bits .f32 = 32 ∨ (Rect.block (s := S1x6400) S1x1280.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S512x1280.size a ≤ S8192x6400.size a
  hwx1_3 : ∀ i : grid1.Coords, EltTy.bits .f32 = 32 ∨ (Rect.block (s := S8192x6400) S512x1280.size (cc1_transform_3 i) (hinb1_3 i)).WholeWords (EltTy.packing .f32)

variable [Facts₀]

def dot_S512x1600_S1600x1280_S512x1280_1_0_0_1_n_n : DotDims S512x1600 S1600x1280 S512x1280 where
  lhsContracting := [1]
  rhsContracting := [0]
  lhsNonContracting := [0]
  rhsNonContracting := [1]
  lhsBatch := []
  rhsBatch := []
  wf := dot_S512x1600_S1600x1280_S512x1280_1_0_0_1_n_n_wf

abbrev win0_0 : Pipeline.Window sig grid0 :=
  Pipeline.Window.ofSpec (Memref.whole main_arg1) S200x6400.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S200x6400.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

abbrev win1_0 : Pipeline.Window sig grid1 :=
  Pipeline.Window.ofSpec (Memref.whole main_v2) S512x1600.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v0) S1600x1280.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v1) S1x1280.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v3) S512x1280.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S4x2048x1600 : Shape := ⟨3, ![4, 2048, 1600]⟩
abbrev S1600x6400 : Shape := ⟨2, ![1600, 6400]⟩
abbrev S6400 : Shape := ⟨1, ![6400]⟩
abbrev S_ : Shape := ⟨0, ![]⟩
abbrev S1600 : Shape := ⟨1, ![1600]⟩
abbrev S1600x1 : Shape := ⟨2, ![1600, 1]⟩
abbrev S4x2048 : Shape := ⟨2, ![4, 2048]⟩
abbrev S4x2048x1 : Shape := ⟨3, ![4, 2048, 1]⟩
abbrev S4x2048x6400 : Shape := ⟨3, ![4, 2048, 6400]⟩
abbrev S1x1x6400 : Shape := ⟨3, ![1, 1, 6400]⟩

abbrev nBuf : Space → Nat
  | .hbm => 43
  | .vmem => 0
  | .smem => 0
  | _ => 0

abbrev bufTy : (tb : Table) → Fin (tcTables nBuf tb) → BufTy
  | .hbm, ⟨0, _⟩ => ⟨S4x2048x1600, .f32⟩
  | .hbm, ⟨1, _⟩ => ⟨S1600x6400, .f32⟩
  | .hbm, ⟨2, _⟩ => ⟨S6400, .f32⟩
  | .hbm, ⟨3, _⟩ => ⟨S1600x6400, .f32⟩
  | .hbm, ⟨4, _⟩ => ⟨S_, .f32⟩
  | .hbm, ⟨5, _⟩ => ⟨S1600, .f32⟩
  | .hbm, ⟨6, _⟩ => ⟨S1600x1, .f32⟩
  | .hbm, ⟨7, _⟩ => ⟨S_, .f32⟩
  | .hbm, ⟨8, _⟩ => ⟨S1600x1, .f32⟩
  | .hbm, ⟨9, _⟩ => ⟨S1600x1, .f32⟩
  | .hbm, ⟨10, _⟩ => ⟨S_, .f32⟩
  | .hbm, ⟨11, _⟩ => ⟨S1600x1, .f32⟩
  | .hbm, ⟨12, _⟩ => ⟨S1600x1, .f32⟩
  | .hbm, ⟨13, _⟩ => ⟨S1600x6400, .f32⟩
  | .hbm, ⟨14, _⟩ => ⟨S1600x6400, .f32⟩
  | .hbm, ⟨15, _⟩ => ⟨S1600x6400, .f32⟩
  | .hbm, ⟨16, _⟩ => ⟨S_, .f32⟩
  | .hbm, ⟨17, _⟩ => ⟨S1600x1, .f32⟩
  | .hbm, ⟨18, _⟩ => ⟨S1600x1, .f32⟩
  | .hbm, ⟨19, _⟩ => ⟨S1600x6400, .f32⟩
  | .hbm, ⟨20, _⟩ => ⟨S1600x6400, .f32⟩
  | .hbm, ⟨21, _⟩ => ⟨S4x2048x1600, .f32⟩
  | .hbm, ⟨22, _⟩ => ⟨S_, .f32⟩
  | .hbm, ⟨23, _⟩ => ⟨S4x2048, .f32⟩
  | .hbm, ⟨24, _⟩ => ⟨S4x2048x1, .f32⟩
  | .hbm, ⟨25, _⟩ => ⟨S_, .f32⟩
  | .hbm, ⟨26, _⟩ => ⟨S4x2048x1, .f32⟩
  | .hbm, ⟨27, _⟩ => ⟨S4x2048x1, .f32⟩
  | .hbm, ⟨28, _⟩ => ⟨S_, .f32⟩
  | .hbm, ⟨29, _⟩ => ⟨S4x2048x1, .f32⟩
  | .hbm, ⟨30, _⟩ => ⟨S4x2048x1, .f32⟩
  | .hbm, ⟨31, _⟩ => ⟨S4x2048x1600, .f32⟩
  | .hbm, ⟨32, _⟩ => ⟨S4x2048x1600, .f32⟩
  | .hbm, ⟨33, _⟩ => ⟨S4x2048x1600, .f32⟩
  | .hbm, ⟨34, _⟩ => ⟨S_, .f32⟩
  | .hbm, ⟨35, _⟩ => ⟨S4x2048x1, .f32⟩
  | .hbm, ⟨36, _⟩ => ⟨S4x2048x1, .f32⟩
  | .hbm, ⟨37, _⟩ => ⟨S4x2048x1600, .f32⟩
  | .hbm, ⟨38, _⟩ => ⟨S4x2048x1600, .f32⟩
  | .hbm, ⟨39, _⟩ => ⟨S4x2048x6400, .f32⟩
  | .hbm, ⟨40, _⟩ => ⟨S1x1x6400, .f32⟩
  | .hbm, ⟨41, _⟩ => ⟨S4x2048x6400, .f32⟩
  | .hbm, ⟨42, _⟩ => ⟨S4x2048x6400, .f32⟩
  | _, _ => ⟨S4x2048x1600, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_cst_2 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_cst_3 : Ref sig .tc := ⟨.hbm, 22, rfl⟩
abbrev main_v15 : Ref sig .tc := ⟨.hbm, 23, rfl⟩
abbrev main_v16 : Ref sig .tc := ⟨.hbm, 24, rfl⟩
abbrev main_cst_4 : Ref sig .tc := ⟨.hbm, 25, rfl⟩
abbrev main_v17 : Ref sig .tc := ⟨.hbm, 26, rfl⟩
abbrev main_v18 : Ref sig .tc := ⟨.hbm, 27, rfl⟩
abbrev main_cst_5 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_cst_6 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩

abbrev nD : Nat := 1
abbrev τ : Topo := Topo.v7x

variable {F : FTy → Type} [FloatOps F]

class Facts₀ : Prop where
  reducesTo_S1600x6400_S1600_d1 : S1600x6400.ReducesTo [1] S1600
  h_S_ : 0 < S_.numel
  bcast_S1600_S1600x1_0 : S1600.BroadcastsInDim S1600x1 (![0] : Fin 1 → Fin S1600x1.rank)
  bcast_S_S1600x1 : S_.BroadcastsInDim S1600x1 (![] : Fin 0 → Fin S1600x1.rank)
  bcast_S1600x1_S1600x6400_0_1 : S1600x1.BroadcastsInDim S1600x6400 (![0, 1] : Fin 2 → Fin S1600x6400.rank)
  reducesTo_S4x2048x1600_S4x2048_d2 : S4x2048x1600.ReducesTo [2] S4x2048
  bcast_S4x2048_S4x2048x1_0_1 : S4x2048.BroadcastsInDim S4x2048x1 (![0, 1] : Fin 2 → Fin S4x2048x1.rank)
  bcast_S_S4x2048x1 : S_.BroadcastsInDim S4x2048x1 (![] : Fin 0 → Fin S4x2048x1.rank)
  bcast_S4x2048x1_S4x2048x1600_0_1_2 : S4x2048x1.BroadcastsInDim S4x2048x1600 (![0, 1, 2] : Fin 3 → Fin S4x2048x1600.rank)
  bcast_S6400_S1x1x6400_2 : S6400.BroadcastsInDim S1x1x6400 (![2] : Fin 1 → Fin S1x1x6400.rank)
  bcast_S1x1x6400_S4x2048x6400_0_1_2 : S1x1x6400.BroadcastsInDim S4x2048x6400 (![0, 1, 2] : Fin 3 → Fin S4x2048x6400.rank)
  dot_S4x2048x1600_S1600x6400_S4x2048x6400_2_0_01_1_n_n_wf : DotDims.WF S4x2048x1600 S1600x6400 S4x2048x6400 [2] [0] [0, 1] [1] [] []

variable [Facts₀]

def dot_S4x2048x1600_S1600x6400_S4x2048x6400_2_0_01_1_n_n : DotDims S4x2048x1600 S1600x6400 S4x2048x6400 where
  lhsContracting := [2]
  rhsContracting := [0]
  lhsNonContracting := [0, 1]
  rhsNonContracting := [1]
  lhsBatch := []
  rhsBatch := []
  wf := dot_S4x2048x1600_S1600x6400_S4x2048x6400_2_0_01_1_n_n_wf

class Facts : Prop extends Facts₀ where

variable [Facts]
-- ==== Proof.Spec.lean ====
/-
  The mathematics both programs compute, on the extended reals.

  A row `r` is quantised symmetrically to eight bits: with `M = max_k |r k|` (from -∞), the scale is
  `s = 127 / (M + ε)` and every entry becomes `round_even (r k · s) / (s + ε)`, `ε` the f32 nearest to 1e-6.
  The weight matrix `w : [1600, 6400]` is quantised along each of its 1600 rows, the activations
  `x : [4, 2048, 1600]` along each token's 1600 features, and the result is the product of the two quantised
  arrays over the shared axis of 1600 plus the bias:
      out (b, s, f) = Σ_k xq (b, s, k) · wq (k, f) + bias f.
  No law of the extended reals is needed to join the two programs: they compute this same expression, one tile
  at a time or all at once.
-/
import Idealize.ShloMosaic.PureOps.Ideal
import Idealize.ShloMosaic.Lib.ValueIdx

noncomputable section

namespace Cert.Quant

open Idealize.ShloMosaic Idealize.ShloMosaic.ValueIdx

/-- The f32 nearest to 1e-6, as the extended real it denotes. -/
abbrev eps : EReal := Ideal.ofBits .f32 0x358637BD#32
/-- 127, the largest magnitude of a signed eight-bit code. -/
abbrev qmax : EReal := Ideal.ofBits .f32 0x42FE0000#32
/-- -∞, the value a maximum starts from. -/
abbrev negInf : EReal := Ideal.ofBits .f32 0xFF800000#32

/-- The largest absolute value of a row, `|a| = max a (-a)`, folded from -∞. -/
def absMax {n : ℕ} (r : Fin n → EReal) : EReal :=
  (Finset.univ : Finset (Fin n)).fold max negInf (fun k => max (r k) (-(r k)))

/-- The scale of a row whose largest absolute value is `M`. -/
def scale (M : EReal) : EReal := Ideal.div qmax (M + eps)

/-- One entry quantised at scale `s`: rounded to the nearest integer (ties to even) after scaling, then scaled back. -/
def quant (s v : EReal) : EReal := Ideal.div (Ideal.liftRound Ideal.roundHalfEven (v * s)) (s + eps)

/-- A row quantised at its own scale. -/
def quantRow {n : ℕ} (r : Fin n → EReal) (k : Fin n) : EReal := quant (scale (absMax r)) (r k)

/-- The weight, quantised along each row. -/
def wq (w : (⟨2, ![1600, 6400]⟩ : Shape).Idx → EReal) (k : Fin 1600) (f : Fin 6400) : EReal :=
  quantRow (fun f' => w (ix2 k f')) f

/-- The activations, quantised along each token's features. -/
def xq (x : (⟨3, ![4, 2048, 1600]⟩ : Shape).Idx → EReal) (b : Fin 4) (s : Fin 2048) (k : Fin 1600) : EReal :=
  quantRow (fun k' => x (ix3 b s k')) k

/-- One entry of the result. -/
def out (x : (⟨3, ![4, 2048, 1600]⟩ : Shape).Idx → EReal) (w : (⟨2, ![1600, 6400]⟩ : Shape).Idx → EReal)
    (bias : (⟨1, ![6400]⟩ : Shape).Idx → EReal) (b : Fin 4) (s : Fin 2048) (f : Fin 6400) : EReal :=
  (∑ k : Fin 1600, xq x b s k * wq w k f) + bias (ix1 f)

/-- The whole result array. -/
def result (x : (⟨3, ![4, 2048, 1600]⟩ : Shape).Idx → EReal) (w : (⟨2, ![1600, 6400]⟩ : Shape).Idx → EReal)
    (bias : (⟨1, ![6400]⟩ : Shape).Idx → EReal) : (⟨3, ![4, 2048, 6400]⟩ : Shape).Idx → EReal :=
  fun i => out x w bias (i 0) (i 1) (i 2)

end Cert.Quant

end
-- ==== Proof.LibKeepdimsColumn.lean ====
/-
  A reduction over the last axis of a rank-2 array kept as a column (`keepdims=True`), read at an index.

  Three facts, generic in the two extents `A`, `B` and in nothing else:
  * over row `p`, the source index a one-axis reduction along axis 1 inserts coordinate `k` into is `(p, k)`;
  * a vector `[A]` reshaped to a column `[A, 1]` reads, at `(p, 0)`, the vector at `p`;
  * a column `[A, 1]` broadcast to `[A, B]` reads, at `(p, q)`, the column at `(p, 0)` (for `A ≠ 1`: with one row the
    broadcast rule reads the size-one axis at 0 as well, which is the same entry, but the side condition differs).
-/
import Idealize.ShloMosaic.PureOps.Reduce
import Idealize.ShloMosaic.Lib.Pipeline.Value
import Idealize.ShloMosaic.Lib.ValueIdx

noncomputable section

namespace Cert.LibKeepdimsColumn

open Idealize.ShloMosaic Idealize.ShloMosaic.ValueIdx

variable {A B : ℕ} {α : Type}

/-- Over row `p`, the index whose coordinate on the reduced axis (axis 1) is `k` is `(p, k)`. -/
theorem lift_row (hr : (⟨2, ![A, B]⟩ : Shape).Reduces [1] ⟨1, ![A]⟩) (p : Fin A) (k : Fin B) :
    hr.lift (ix1 p) k = ix2 p k := by
  funext c; apply Fin.ext
  match c with
  | ⟨0, _⟩ => rfl
  | ⟨1, _⟩ => rfl

/-- A vector of one entry per row, reshaped to a column, read at `(p, 0)`: the vector at `p`. -/
theorem column_apply (hs : (⟨1, ![A]⟩ : Shape).ShapeCasts ⟨2, ![A, 1]⟩) (y : (⟨1, ![A]⟩ : Shape).Idx → α) (p : Fin A) :
    shapeCast ⟨2, ![A, 1]⟩ y hs (ix2 p (0 : Fin 1)) = y (ix1 p) := by
  refine shapeCast_apply y hs _ (ix1 p) ?_
  rw [Shape.rowMajor_val_one, Shape.rowMajor_val_two]
  show p.val = p.val * 1 + 0
  omega

/-- A column stretched over the row, read at `(p, q)`: the column at `(p, 0)`. -/
theorem stretch_apply (hA : A ≠ 1) (hb : (⟨2, ![A, 1]⟩ : Shape).Broadcasts ⟨2, ![A, B]⟩) (y : (⟨2, ![A, 1]⟩ : Shape).Idx → α)
    (p : Fin A) (q : Fin B) :
    broadcastTo ⟨2, ![A, B]⟩ y hb (ix2 p q) = y (ix2 p (0 : Fin 1)) := by
  refine broadcastTo_apply y hb _ (ix2 p (0 : Fin 1)) fun a => ?_
  match a with
  | ⟨0, _⟩ => show p.val = if A = 1 then 0 else p.val; rw [if_neg hA]
  | ⟨1, _⟩ => show 0 = if (1 : ℕ) = 1 then 0 else q.val; rw [if_pos rfl]

end Cert.LibKeepdimsColumn

end
-- ==== Proof.RowKernel.lean ====
/-
  A row-wise quantisation written with the vector operations of a kernel body, read at one entry.

  For a block `v : [A, B]` the body takes the lane maximum of `|v|` along axis 1 (one number per row), reshapes it to a
  column `[A, 1]`, forms the scale `127 / (M + ε)` in that column, stretches the column over the row, multiplies, rounds,
  and divides by the stretched `s + ε`. Entry `(p, q)` of the outcome depends on row `p` alone: it is row `p` quantised,
  at `q`.
-/
import Idealize.ShloMosaic.PureOps.Ideal.Laws
import Idealize.ShloMosaic.Lib.Pipeline.Value
import Idealize.ShloMosaic.Lib.ValueIdx
import proofs.«107254_j4226247819931_1_alg».proof.Proof.Spec
import proofs.«107254_j4226247819931_1_alg».proof.Proof.LibKeepdimsColumn

noncomputable section

namespace Cert.Quant

open Idealize.ShloMosaic Idealize.ShloMosaic.ValueIdx Cert.LibKeepdimsColumn

variable {A B : ℕ}

/-- The lane maximum of `|v|` at row `p` is that row's largest absolute value. -/
theorem laneMax_abs (hr : (⟨2, ![A, B]⟩ : Shape).Reduces [1] ⟨1, ![A]⟩) (v : FVec Ideal ⟨2, ![A, B]⟩ .f32) (p : Fin A) :
    multiReduction .maximumf [1] ⟨1, ![A]⟩ (absf v) 0xFF800000#32 hr (.inl rfl) rfl (ix1 p)
      = absMax (fun k => v (ix2 p k)) := by
  refine (Ideal.multiReduction_maximumf_single (absf v) 0xFF800000#32 hr (.inl rfl) rfl (ix1 p)).trans ?_
  unfold absMax
  refine congrArg (fun f => Finset.fold max negInf f Finset.univ) (funext fun k => ?_)
  exact (congrArg (absf v) (lift_row hr p k)).trans rfl

/-- THE BODY'S QUANTISATION AT AN ENTRY: row `p` of the block, quantised, at `q`. -/
theorem quantBlock_apply (hA : A ≠ 1) (hr : (⟨2, ![A, B]⟩ : Shape).Reduces [1] ⟨1, ![A]⟩)
    (hs : (⟨1, ![A]⟩ : Shape).ShapeCasts ⟨2, ![A, 1]⟩) (hb : (⟨2, ![A, 1]⟩ : Shape).Broadcasts ⟨2, ![A, B]⟩)
    (v : FVec Ideal ⟨2, ![A, B]⟩ .f32) (p : Fin A) (q : Fin B) :
    divf (roundeven (mulf v (broadcastTo ⟨2, ![A, B]⟩
        (divf (broadcast ⟨2, ![A, 1]⟩ (Scalar.ofBits (F := Ideal) .f32 0x42FE0000#32))
          (addf (shapeCast ⟨2, ![A, 1]⟩ (multiReduction .maximumf [1] ⟨1, ![A]⟩ (absf v) 0xFF800000#32 hr (.inl rfl) rfl) hs)
            (broadcast ⟨2, ![A, 1]⟩ (Scalar.ofBits (F := Ideal) .f32 0x358637BD#32)))) hb)))
      (broadcastTo ⟨2, ![A, B]⟩
        (addf (divf (broadcast ⟨2, ![A, 1]⟩ (Scalar.ofBits (F := Ideal) .f32 0x42FE0000#32))
          (addf (shapeCast ⟨2, ![A, 1]⟩ (multiReduction .maximumf [1] ⟨1, ![A]⟩ (absf v) 0xFF800000#32 hr (.inl rfl) rfl) hs)
            (broadcast ⟨2, ![A, 1]⟩ (Scalar.ofBits (F := Ideal) .f32 0x358637BD#32))))
          (broadcast ⟨2, ![A, 1]⟩ (Scalar.ofBits (F := Ideal) .f32 0x358637BD#32))) hb) (ix2 p q)
      = quantRow (fun k => v (ix2 p k)) q := by
  rw [divf_apply, stretch_apply hA]
  show Ideal.div (Ideal.liftRound Ideal.roundHalfEven (v (ix2 p q) * broadcastTo ⟨2, ![A, B]⟩ _ hb (ix2 p q))) _ = _
  rw [stretch_apply hA]
  rw [addf_apply, divf_apply, addf_apply, column_apply, laneMax_abs]
  rfl

end Cert.Quant

end
-- ==== Proof.Tiles.lean ====
/-
  What each kernel body computes on its tile, read at one entry.

  The weight kernel's tile of 200 whole rows comes out with every row quantised; the product kernel quantises the 512
  whole rows of its activation tile the same way, multiplies them into a 1600 × 1280 tile of the quantised weight
  — a matrix product into a zero accumulator is the plain sum over the shared axis of 1600 — and adds the bias row.
-/
import proofs.«107254_j4226247819931_1_alg».proof.Proof.Gen.KernelIdeal.Skeleton
import proofs.«107254_j4226247819931_1_alg».proof.Proof.RowKernel
import Idealize.ShloMosaic.Lib.ValueLayout

noncomputable section

namespace Cert.KernelIdeal.Tile

open Idealize.ShloMosaic Idealize.ShloMosaic.ValueIdx Cert.KernelIdeal Cert.KernelIdeal.Gen Cert.Quant

/-- The weight kernel's tile at `(p, q)`: row `p` of the loaded tile, quantised, at `q`. -/
theorem weightTile_apply (v0 : FVec Ideal S200x6400 .f32) (p : Fin 200) (q : Fin 6400) :
    k0_pay1 (F := Ideal) v0 (ix2 p q) = quantRow (fun f => v0 (ix2 p f)) q := by
  unfold k0_pay1
  exact quantBlock_apply (A := 200) (B := 6400) (by omega) reduces_S200x6400_S200 shapeCasts_S200_S200x1
    broadcasts_S200x1_S200x6400 v0 p q

/-! ## The product's operand indices, axis by axis -/

theorem lhs_0 (i : S512x1280.Idx) (q : dot_S512x1600_S1600x1280_S512x1280_1_0_0_1_n_n.contr.Idx) :
    (dot_S512x1600_S1600x1280_S512x1280_1_0_0_1_n_n.lhsIdx i q 0).val = (i 0).val := by
  unfold DotDims.lhsIdx
  rw [dif_neg (show ¬(0 : Fin S512x1600.rank) ∈ dot_S512x1600_S1600x1280_S512x1280_1_0_0_1_n_n.lhsBatch by decide), dif_pos (show (0 : Fin S512x1600.rank) ∈ dot_S512x1600_S1600x1280_S512x1280_1_0_0_1_n_n.lhsNonContracting by decide)]
  rfl
theorem lhs_1 (i : S512x1280.Idx) (q : dot_S512x1600_S1600x1280_S512x1280_1_0_0_1_n_n.contr.Idx) :
    (dot_S512x1600_S1600x1280_S512x1280_1_0_0_1_n_n.lhsIdx i q 1).val = (q ⟨0, by decide⟩).val :=
  dot_S512x1600_S1600x1280_S512x1280_1_0_0_1_n_n.lhsIdx_val_of_single rfl i q
theorem rhs_0 (i : S512x1280.Idx) (q : dot_S512x1600_S1600x1280_S512x1280_1_0_0_1_n_n.contr.Idx) :
    (dot_S512x1600_S1600x1280_S512x1280_1_0_0_1_n_n.rhsIdx i q 0).val = (q ⟨0, by decide⟩).val :=
  dot_S512x1600_S1600x1280_S512x1280_1_0_0_1_n_n.rhsIdx_val_of_single rfl i q
theorem rhs_1 (i : S512x1280.Idx) (q : dot_S512x1600_S1600x1280_S512x1280_1_0_0_1_n_n.contr.Idx) :
    (dot_S512x1600_S1600x1280_S512x1280_1_0_0_1_n_n.rhsIdx i q 1).val = (i 1).val := by
  unfold DotDims.rhsIdx
  rw [dif_neg (show ¬(1 : Fin S1600x1280.rank) ∈ dot_S512x1600_S1600x1280_S512x1280_1_0_0_1_n_n.rhsBatch by decide), dif_pos (show (1 : Fin S1600x1280.rank) ∈ dot_S512x1600_S1600x1280_S512x1280_1_0_0_1_n_n.rhsNonContracting by decide)]
  rfl

/-- The tile product into a zero accumulator at `(p, q)`: the sum over the shared axis of row `p` times column `q`. -/
theorem product_apply (l : FVec Ideal S512x1600 .bf16) (r : FVec Ideal S1600x1280 .bf16) (p : Fin 512) (q : Fin 1280) :
    matmul dot_S512x1600_S1600x1280_S512x1280_1_0_0_1_n_n none l r (constant (F := Ideal) S512x1280 .f32 0x00000000#32) (ix2 p q)
      = ∑ k : Fin 1600, l (ix2 p k) * r (ix2 k q) := by
  simp only [matmul]
  rw [Ideal.matmul_constant_zero_apply, ← Equiv.sum_comp (contrEquiv1 dot_S512x1600_S1600x1280_S512x1280_1_0_0_1_n_n 1600 rfl rfl).symm]
  refine Finset.sum_congr rfl fun k _ => ?_
  have hk := contrEquiv1_symm_val dot_S512x1600_S1600x1280_S512x1280_1_0_0_1_n_n 1600 rfl rfl k
  have el : dot_S512x1600_S1600x1280_S512x1280_1_0_0_1_n_n.lhsIdx (ix2 p q) ((contrEquiv1 dot_S512x1600_S1600x1280_S512x1280_1_0_0_1_n_n 1600 rfl rfl).symm k) = ix2 p k := funext fun a => Fin.ext (by
    match a with
    | ⟨0, _⟩ => exact lhs_0 _ _
    | ⟨1, _⟩ => exact (lhs_1 _ _).trans hk)
  have er : dot_S512x1600_S1600x1280_S512x1280_1_0_0_1_n_n.rhsIdx (ix2 p q) ((contrEquiv1 dot_S512x1600_S1600x1280_S512x1280_1_0_0_1_n_n 1600 rfl rfl).symm k) = ix2 k q := funext fun a => Fin.ext (by
    match a with
    | ⟨0, _⟩ => exact (rhs_0 _ _).trans hk
    | ⟨1, _⟩ => exact rhs_1 _ _)
  rw [el, er]

/-- The product kernel's tile at `(p, q)`: row `p` of the activation tile, quantised, times column `q` of the weight
    tile, summed over the shared axis, plus the bias row at `q`. -/
theorem outTile_apply (v0 : FVec Ideal S512x1600 .f32) (v17 : FVec Ideal S1600x1280 .bf16) (v20 : FVec Ideal S1x1280 .f32)
    (p : Fin 512) (q : Fin 1280) :
    k1_pay1 (F := Ideal) v0 v17 v20 (ix2 p q)
      = (∑ k : Fin 1600, quantRow (fun k' => v0 (ix2 p k')) k * v17 (ix2 k q)) + v20 (ix2 (0 : Fin 1) q) := by
  unfold k1_pay1
  simp only [shapeCast_self]
  refine (addf_apply _ _ _).trans ?_
  rw [product_apply, broadcastTo_1b_ab_apply]
  refine congrArg (· + v20 (ix2 (0 : Fin 1) q)) (Finset.sum_congr rfl fun k _ => ?_)
  have hrow := quantBlock_apply (A := 512) (B := 1600) (by omega) reduces_S512x1600_S512 shapeCasts_S512_S512x1
    broadcasts_S512x1_S512x1600 v0 p k
  exact congrArg (· * v17 (ix2 k q)) hrow

end Cert.KernelIdeal.Tile

end
-- ==== Proof.Arrays.lean ====
/-
  From tiles to whole arrays, for each of the two kernel regions, at whatever contents `V` the region is entered with.

  Region 0 walks the weight in 8 tiles of 200 whole rows; tile `t` holds rows `200 t … 200 t + 199`, and a row's
  quantisation reads that row only, so what point `t` writes back is tile `t` of the array "every row quantised".
  Region 1 walks the output in 16 × 5 tiles of 512 × 1280; at a point with tile coordinates `(I, J)` it reads the 512
  whole activation rows `512 I …`, the 1280 weight columns `1280 J …` over all 1600 rows, and the same 1280 bias
  entries, so what it writes back is tile `(I, J)` of the array "quantised rows times weight, plus bias". In both
  regions the tiles cover the output array, so the array ends holding that function everywhere.
-/
import proofs.«107254_j4226247819931_1_alg».proof.Proof.Gen.KernelIdeal.Frame
import proofs.«107254_j4226247819931_1_alg».proof.Proof.Tiles
import Idealize.ShloMosaic.Lib.Pipeline.Value

set_option maxRecDepth 16384

noncomputable section

namespace Cert.KernelIdeal.Arrays

open Idealize.ShloMosaic Idealize.ShloMosaic.TcCoe Idealize.ShloMosaic.ValueIdx
open Cert.KernelIdeal Cert.KernelIdeal.Gen Cert.Quant Cert.KernelIdeal.Tile
open Idealize.SL Idealize.SL.Sem
open Idealize.ShloMosaic.Pipeline (Dat Cfg Window)

variable (V : (c : Dev nD) → (b : Ref sig .tc) → Buf (Elt Ideal) ((c : Thread nD τ).loc b))

theorem origin : (![0, 0] : Fin 2 → Nat) = fun _ => 0 := funext fun a => by fin_cases a <;> rfl

/-! ## Region 0: the weight, every row quantised -/

/-- The weight array with every row quantised. -/
def wqArr (w : S1600x6400.Idx → EReal) : S1600x6400.Idx → EReal := fun i => wq w (i 0) (i 1)

/-- Both windows of region 0 sit at tile `(t, 0)` at point `t`. -/
theorem tileAt0 : ∀ t : Fin cfg0.N, win0_0.index t (0 : Fin 2) = t.val ∧ win0_0.index t (1 : Fin 2) = 0
    ∧ win0_1.index t (0 : Fin 2) = t.val ∧ win0_1.index t (1 : Fin 2) = 0 :=
  (by decide +kernel : ∀ t : Fin grid0.N, _)

/-- What point `t` writes back is tile `t` of the row-quantised weight. -/
theorem weight_flushed (c : Dev nD) (t : Fin cfg0.N) :
    (dat0 V c).flushed 1 t = ((cfg0.win 1).blk t).view.read (Elt Ideal) (wqArr (V c main_arg1)) := by
  show (cfg0.win 1).cut (grid0.coords t) ((dat0 V c).after 1 t) = _
  rw [after0_1]
  unfold out0_1
  rw [View.canon_unit_zero origin]
  simp only [View.ld_unit_zero (S := S200x6400) origin]
  obtain ⟨e0, e1, e2, e3⟩ := tileAt0 t
  have ht : t.val < 8 := lt_of_lt_of_eq t.isLt N_0
  funext j
  obtain ⟨p, q, rfl⟩ : ∃ (p : Fin 200) (q : Fin 6400), j = ix2 p q := ⟨j 0, j 1, eq_ix2 j⟩
  show k0_pay1 (F := Ideal) (iblk0 V c 0 t) (ix2 p q) = wqArr (V c main_arg1) (((cfg0.win 1).blk t).view.emb (ix2 p q))
  refine (weightTile_apply (iblk0 V c 0 t) p q).trans ?_
  have hp : p.val < 200 := p.isLt
  have hq : q.val < 6400 := q.isLt
  -- the array row this tile row is
  let R : Fin 1600 := ⟨t.val * 200 + p.val, by omega⟩
  have hout : ((cfg0.win 1).blk t).view.emb (ix2 p q) = ix2 R q := by
    funext a; apply Fin.ext
    match a with
    | ⟨0, _⟩ => show win0_1.index t (0 : Fin 2) * 200 + 1 * p.val = t.val * 200 + p.val; omega
    | ⟨1, _⟩ => show win0_1.index t (1 : Fin 2) * 6400 + 1 * q.val = q.val; omega
  have hin : ∀ f : Fin 6400, iblk0 V c 0 t (ix2 p f) = V c main_arg1 (ix2 R f) := fun f => by
    show V c main_arg1 (((cfg0.win 0).blk t).view.emb (ix2 p f)) = V c main_arg1 (ix2 R f)
    refine congrArg (V c main_arg1) ?_
    funext a; apply Fin.ext
    have hf : f.val < 6400 := f.isLt
    match a with
    | ⟨0, _⟩ => show win0_0.index t (0 : Fin 2) * 200 + 1 * p.val = t.val * 200 + p.val; omega
    | ⟨1, _⟩ => show win0_0.index t (1 : Fin 2) * 6400 + 1 * f.val = f.val; omega
  rw [hout]
  show quantRow (fun f => iblk0 V c 0 t (ix2 p f)) q = quantRow (fun f' => V c main_arg1 (ix2 R f')) q
  exact congrArg (fun r => quantRow r q) (funext hin)

/-- An index of the weight array is in point `t`'s tile iff each coordinate is in the tile's range on its axis. -/
theorem mem_tile0 (t : Fin cfg0.N) (i : S1600x6400.Idx) :
    i ∈ ((cfg0.win 1).blk t).view.set ↔ ∀ a : Fin 2, win0_1.index t a * S200x6400.size a ≤ (i a).val ∧ (i a).val < win0_1.index t a * S200x6400.size a + S200x6400.size a := by
  show i ∈ ((View.whole main_v0).slice (win0_1.rect t)).set ↔ _
  rw [View.set_slice_whole, Rect.mem_set_unit]
  exact Iff.rfl

/-- THE ARRAY region 0 leaves: the weight with every row quantised. -/
theorem weight_final (c : Dev nD) : (dat0 V c).arrAt 1 cfg0.N = wqArr (V c main_arg1) :=
  (dat0 V c).arrAt_eq_of_cover 1 (wqArr (V c main_arg1)) (fun t _ => weight_flushed V c t) fun i => by
    have hi0 : (i 0).val < 1600 := (i 0).isLt
    have hi1 : (i 1).val < 6400 := (i 1).isLt
    let t : Fin cfg0.N := ⟨(i 0).val / 200, lt_of_lt_of_eq (by omega : (i 0).val / 200 < 8) N_0.symm⟩
    obtain ⟨e0, e1, e2, e3⟩ := tileAt0 t
    have tv : t.val = (i 0).val / 200 := rfl
    refine ⟨t, flush0_1 t, ?_⟩
    rw [mem_tile0]
    intro a
    match a with
    | ⟨0, _⟩ => show win0_1.index t (0 : Fin 2) * 200 ≤ (i 0).val ∧ (i 0).val < win0_1.index t (0 : Fin 2) * 200 + 200; omega
    | ⟨1, _⟩ => show win0_1.index t (1 : Fin 2) * 6400 ≤ (i 1).val ∧ (i 1).val < win0_1.index t (1 : Fin 2) * 6400 + 6400; omega

/-! ## Region 1: quantised activation rows times the weight array, plus the bias row -/

/-- One entry of region 1's output from the arrays it reads: the flat activations, the weight array as it finds it, the
    bias as one row. -/
def outElt (xf : S8192x1600.Idx → EReal) (wa : S1600x6400.Idx → EReal) (b2 : S1x6400.Idx → EReal) (r : Fin 8192) (f : Fin 6400) : EReal :=
  (∑ k : Fin 1600, quantRow (fun k' => xf (ix2 r k')) k * wa (ix2 k f)) + b2 (ix2 (0 : Fin 1) f)

/-- Region 1's output array. -/
def outArr (xf : S8192x1600.Idx → EReal) (wa : S1600x6400.Idx → EReal) (b2 : S1x6400.Idx → EReal) : S8192x6400.Idx → EReal :=
  fun i => outElt xf wa b2 (i 0) (i 1)

/-- At every point the activation window sits at the output tile's row, the weight and bias windows at its column, and the
    output tile stays inside the 16 × 5 box. -/
theorem tileAt1 : ∀ t : Fin cfg1.N, win1_0.index t (0 : Fin 2) = win1_3.index t (0 : Fin 2) ∧ win1_0.index t (1 : Fin 2) = 0
    ∧ win1_1.index t (0 : Fin 2) = 0 ∧ win1_1.index t (1 : Fin 2) = win1_3.index t (1 : Fin 2)
    ∧ win1_2.index t (0 : Fin 2) = 0 ∧ win1_2.index t (1 : Fin 2) = win1_3.index t (1 : Fin 2)
    ∧ win1_3.index t (0 : Fin 2) ≤ 15 ∧ win1_3.index t (1 : Fin 2) ≤ 4 :=
  (by decide +kernel : ∀ t : Fin grid1.N, _)

/-- Every tile of the 16 × 5 box is some point's. -/
theorem tileOnto1 : ∀ (q0 : Fin 16) (q1 : Fin 5), ∃ t : Fin cfg1.N, win1_3.index t = ![q0.val, q1.val] :=
  (by decide +kernel : ∀ (q0 : Fin 16) (q1 : Fin 5), ∃ t : Fin grid1.N, win1_3.index t = ![q0.val, q1.val])

/-- What point `t` writes back is its tile of region 1's output array. -/
theorem out_flushed (c : Dev nD) (t : Fin cfg1.N) :
    (dat1 V c).flushed 3 t
      = ((cfg1.win 3).blk t).view.read (Elt Ideal) (outArr (V c main_v2) (V c main_v0) (V c main_v1)) := by
  show (cfg1.win 3).cut (grid1.coords t) ((dat1 V c).after 3 t) = _
  rw [after1_3]
  unfold out1_3
  rw [View.canon_unit_zero origin]
  simp only [View.ld_unit_zero (S := S512x1600) origin, View.ld_unit_zero (S := S1600x1280) origin,
    View.ld_unit_zero (S := S1x1280) origin]
  obtain ⟨e0, e1, e2, e3, e4, e5, b0, b1⟩ := tileAt1 t
  funext j
  obtain ⟨p, q, rfl⟩ : ∃ (p : Fin 512) (q : Fin 1280), j = ix2 p q := ⟨j 0, j 1, eq_ix2 j⟩
  show k1_pay1 (F := Ideal) (iblk1 V c 0 t) (iblk1 V c 1 t) (iblk1 V c 2 t) (ix2 p q)
    = outArr (V c main_v2) (V c main_v0) (V c main_v1) (((cfg1.win 3).blk t).view.emb (ix2 p q))
  refine (outTile_apply (iblk1 V c 0 t) (iblk1 V c 1 t) (iblk1 V c 2 t) p q).trans ?_
  have hp : p.val < 512 := p.isLt
  have hq : q.val < 1280 := q.isLt
  -- the array row and column this tile entry is
  let R : Fin 8192 := ⟨win1_3.index t (0 : Fin 2) * 512 + p.val, by omega⟩
  let C : Fin 6400 := ⟨win1_3.index t (1 : Fin 2) * 1280 + q.val, by omega⟩
  have hout : ((cfg1.win 3).blk t).view.emb (ix2 p q) = ix2 R C := by
    funext a; apply Fin.ext
    match a with
    | ⟨0, _⟩ => show win1_3.index t (0 : Fin 2) * 512 + 1 * p.val = win1_3.index t (0 : Fin 2) * 512 + p.val; omega
    | ⟨1, _⟩ => show win1_3.index t (1 : Fin 2) * 1280 + 1 * q.val = win1_3.index t (1 : Fin 2) * 1280 + q.val; omega
  have hx : ∀ k : Fin 1600, iblk1 V c 0 t (ix2 p k) = V c main_v2 (ix2 R k) := fun k => by
    show V c main_v2 (((cfg1.win 0).blk t).view.emb (ix2 p k)) = V c main_v2 (ix2 R k)
    refine congrArg (V c main_v2) ?_
    funext a; apply Fin.ext
    have hk : k.val < 1600 := k.isLt
    match a with
    | ⟨0, _⟩ => show win1_0.index t (0 : Fin 2) * 512 + 1 * p.val = win1_3.index t (0 : Fin 2) * 512 + p.val; omega
    | ⟨1, _⟩ => show win1_0.index t (1 : Fin 2) * 1600 + 1 * k.val = k.val; omega
  have hw : ∀ k : Fin 1600, iblk1 V c 1 t (ix2 k q) = V c main_v0 (ix2 k C) := fun k => by
    show V c main_v0 (((cfg1.win 1).blk t).view.emb (ix2 k q)) = V c main_v0 (ix2 k C)
    refine congrArg (V c main_v0) ?_
    funext a; apply Fin.ext
    have hk : k.val < 1600 := k.isLt
    match a with
    | ⟨0, _⟩ => show win1_1.index t (0 : Fin 2) * 1600 + 1 * k.val = k.val; omega
    | ⟨1, _⟩ => show win1_1.index t (1 : Fin 2) * 1280 + 1 * q.val = win1_3.index t (1 : Fin 2) * 1280 + q.val; omega
  have hb : iblk1 V c 2 t (ix2 (0 : Fin 1) q) = V c main_v1 (ix2 (0 : Fin 1) C) := by
    show V c main_v1 (((cfg1.win 2).blk t).view.emb (ix2 (0 : Fin 1) q)) = V c main_v1 (ix2 (0 : Fin 1) C)
    refine congrArg (V c main_v1) ?_
    funext a; apply Fin.ext
    match a with
    | ⟨0, _⟩ => show win1_2.index t (0 : Fin 2) * 1 + 1 * 0 = 0; omega
    | ⟨1, _⟩ => show win1_2.index t (1 : Fin 2) * 1280 + 1 * q.val = win1_3.index t (1 : Fin 2) * 1280 + q.val; omega
  rw [hout, hb]
  show _ = (∑ k : Fin 1600, quantRow (fun k' => V c main_v2 (ix2 R k')) k * V c main_v0 (ix2 k C)) + V c main_v1 (ix2 (0 : Fin 1) C)
  refine congrArg (· + V c main_v1 (ix2 (0 : Fin 1) C)) (Finset.sum_congr rfl fun k _ => ?_)
  rw [hw k]
  exact congrArg (fun r => quantRow r k * V c main_v0 (ix2 k C)) (funext hx)

/-- An index of the output array is in point `t`'s tile iff each coordinate is in the tile's range on its axis. -/
theorem mem_tile1 (t : Fin cfg1.N) (i : S8192x6400.Idx) :
    i ∈ ((cfg1.win 3).blk t).view.set ↔ ∀ a : Fin 2, win1_3.index t a * S512x1280.size a ≤ (i a).val ∧ (i a).val < win1_3.index t a * S512x1280.size a + S512x1280.size a := by
  show i ∈ ((View.whole main_v3).slice (win1_3.rect t)).set ↔ _
  rw [View.set_slice_whole, Rect.mem_set_unit]
  exact Iff.rfl

/-- THE ARRAY region 1 leaves. -/
theorem out_final (c : Dev nD) : (dat1 V c).arrAt 3 cfg1.N = outArr (V c main_v2) (V c main_v0) (V c main_v1) :=
  (dat1 V c).arrAt_eq_of_cover 3 (outArr (V c main_v2) (V c main_v0) (V c main_v1)) (fun t _ => out_flushed V c t) fun i => by
    have hi0 : (i 0).val < 8192 := (i 0).isLt
    have hi1 : (i 1).val < 6400 := (i 1).isLt
    obtain ⟨t, ht⟩ := tileOnto1 ⟨(i 0).val / 512, by omega⟩ ⟨(i 1).val / 1280, by omega⟩
    have q0 : win1_3.index t (0 : Fin 2) = (i 0).val / 512 := congrFun ht 0
    have q1 : win1_3.index t (1 : Fin 2) = (i 1).val / 1280 := congrFun ht 1
    refine ⟨t, flush1_3 t, ?_⟩
    rw [mem_tile1]
    intro a
    match a with
    | ⟨0, _⟩ => show win1_3.index t (0 : Fin 2) * 512 ≤ (i 0).val ∧ (i 0).val < win1_3.index t (0 : Fin 2) * 512 + 512; omega
    | ⟨1, _⟩ => show win1_3.index t (1 : Fin 2) * 1280 ≤ (i 1).val ∧ (i 1).val < win1_3.index t (1 : Fin 2) * 1280 + 1280; omega

end Cert.KernelIdeal.Arrays

end
-- ==== Proof.Boundary.lean ====
/-
  What the kernel program's result buffer holds when @main returns, traced back through the boundaries of its run.

  @main is: region 0 (quantise the weight) · two reshapes (the bias to one row, the activations to 8192 rows) · region 1
  (the product) · one reshape of the 8192 × 6400 output back to [4, 2048, 6400]. Region 1 is entered with the
  activations reshaped, the weight array exactly as region 0 left it (no host operation in between writes it), and
  the bias as one row; so the result buffer is the reshape of region 1's output array of those three.
-/
import proofs.«107254_j4226247819931_1_alg».proof.Proof.Gen.KernelIdeal.Frame
import proofs.«107254_j4226247819931_1_alg».proof.Proof.Arrays
import Idealize.ShloMosaic.Lib.StableHlo.Run

set_option maxRecDepth 16384

noncomputable section

namespace Cert.KernelIdeal.Boundary

open Idealize.ShloMosaic Idealize.ShloMosaic.TcCoe Idealize.ShloMosaic.ValueIdx Idealize.ShloMosaic.StableHlo
open Cert.KernelIdeal Cert.KernelIdeal.Gen Cert.Quant Cert.KernelIdeal.Arrays
open Idealize.SL Idealize.SL.Sem

variable (m : (ℓ : Loc nD τ sig) → Buf (Elt Ideal) ℓ) (ρ : Dev nD → PrngReg)

/-- Region 1 is entered with the activations flattened to 8192 rows. -/
theorem entry_x (c : Dev nD) :
    V2 m ρ c main_v2 = shapeCast S8192x1600 (m ((c : Thread nD τ).loc main_arg0)) shapeCasts_S4x2048x1600_S8192x1600 := by
  show StableHlo.after hostOps1 (W1 m ρ c) (Proc.devRef .tc main_v2) = _
  after_results
  have h0 : W1 m ρ c (Proc.devRef .tc main_arg0) = m ((c : Thread nD τ).loc main_arg0) := W1_of_ne m ρ c main_arg0 (by decide)
  rw [h0]
  rfl

/-- Region 1 is entered with the bias as one row. -/
theorem entry_b (c : Dev nD) :
    V2 m ρ c main_v1 = shapeCast S1x6400 (m ((c : Thread nD τ).loc main_arg2)) shapeCasts_S6400_S1x6400 := by
  show StableHlo.after hostOps1 (W1 m ρ c) (Proc.devRef .tc main_v1) = _
  after_results
  have h0 : W1 m ρ c (Proc.devRef .tc main_arg2) = m ((c : Thread nD τ).loc main_arg2) := W1_of_ne m ρ c main_arg2 (by decide)
  rw [h0]
  rfl

/-- Region 1 is entered with the weight array as region 0 left it: every row quantised. -/
theorem entry_w (c : Dev nD) : V2 m ρ c main_v0 = wqArr (m ((c : Thread nD τ).loc main_arg1)) := by
  show StableHlo.after hostOps1 (W1 m ρ c) (Proc.devRef .tc main_v0) = _
  after_results
  exact (W1_arr m ρ c 1).trans (weight_final (V0 m ρ) c)

/-- THE RESULT BUFFER at the return: region 1's output array of the flattened activations, the quantised weight and the
    bias row, reshaped to [4, 2048, 6400]. -/
theorem result_contents (c : Dev nD) :
    W4 m ρ c (Proc.devRef .tc main_v4)
      = shapeCast S4x2048x6400
          (outArr (shapeCast S8192x1600 (m ((c : Thread nD τ).loc main_arg0)) shapeCasts_S4x2048x1600_S8192x1600)
            (wqArr (m ((c : Thread nD τ).loc main_arg1)))
            (shapeCast S1x6400 (m ((c : Thread nD τ).loc main_arg2)) shapeCasts_S6400_S1x6400))
          shapeCasts_S8192x6400_S4x2048x6400 := by
  show StableHlo.after hostOps2 (W3 m ρ c) (Proc.devRef .tc main_v4) = _
  after_results
  have h3 : W3 m ρ c (Proc.devRef .tc main_v3)
      = outArr (shapeCast S8192x1600 (m ((c : Thread nD τ).loc main_arg0)) shapeCasts_S4x2048x1600_S8192x1600)
          (wqArr (m ((c : Thread nD τ).loc main_arg1)))
          (shapeCast S1x6400 (m ((c : Thread nD τ).loc main_arg2)) shapeCasts_S6400_S1x6400) := by
    refine (W3_arr m ρ c 3).trans ((out_final (V2 m ρ) c).trans ?_)
    rw [entry_x, entry_w, entry_b]
  rw [h3]
  rfl

end Cert.KernelIdeal.Boundary

end
-- ==== Proof.KernelValue.lean ====
/-
  The kernel program's result buffer, index by index, is the specification's array.

  Entry `(b, s, f)` of the [4, 2048, 6400] result is entry `(2048 b + s, f)` of region 1's 8192 × 6400 output; row
  `2048 b + s` of the flattened activations is token `(b, s)`'s feature row, and the bias row at `f` is the bias at `f`:
  both reshapes only renumber. What is left is the same sum of products, term by term.
-/
import proofs.«107254_j4226247819931_1_alg».proof.Proof.Arrays
import Idealize.ShloMosaic.Lib.ValueLayout

set_option maxRecDepth 16384

noncomputable section

namespace Cert.KernelIdeal.Value

open Idealize.ShloMosaic Idealize.ShloMosaic.ValueIdx
open Cert.KernelIdeal Cert.KernelIdeal.Gen Cert.Quant Cert.KernelIdeal.Arrays

/-- Row `2048 b + s` of the flattened activations is token `(b, s)`'s row. -/
theorem flat_row (x : S4x2048x1600.Idx → EReal) (b : Fin 4) (s : Fin 2048) (R : Fin 8192) (hR : R.val = b.val * 2048 + s.val)
    (k : Fin 1600) :
    shapeCast S8192x1600 x shapeCasts_S4x2048x1600_S8192x1600 (ix2 R k) = x (ix3 b s k) := by
  refine shapeCast_apply x _ _ (ix3 b s k) ?_
  rw [Shape.rowMajor_val_two, Shape.rowMajor_val_three]
  show (b.val * 2048 + s.val) * 1600 + k.val = R.val * 1600 + k.val
  rw [hR]

/-- Entry `(b, s, f)` of an 8192 × 6400 array reshaped to [4, 2048, 6400] is its entry `(2048 b + s, f)`. -/
theorem unflat_entry (y : S8192x6400.Idx → EReal) (b : Fin 4) (s : Fin 2048) (R : Fin 8192) (hR : R.val = b.val * 2048 + s.val)
    (f : Fin 6400) :
    shapeCast S4x2048x6400 y shapeCasts_S8192x6400_S4x2048x6400 (ix3 b s f) = y (ix2 R f) := by
  refine shapeCast_apply y _ _ (ix2 R f) ?_
  rw [Shape.rowMajor_val_two, Shape.rowMajor_val_three]
  show R.val * 6400 + f.val = (b.val * 2048 + s.val) * 6400 + f.val
  rw [hR]

/-- THE KERNEL'S VALUE: the reshaped output of region 1, over the flattened activations, the row-quantised weight and the
    bias row, is the specification's result. -/
theorem result_eq (x : S4x2048x1600.Idx → EReal) (w : S1600x6400.Idx → EReal) (bias : S6400.Idx → EReal) :
    shapeCast S4x2048x6400
        (outArr (shapeCast S8192x1600 x shapeCasts_S4x2048x1600_S8192x1600) (wqArr w)
          (shapeCast S1x6400 bias shapeCasts_S6400_S1x6400))
        shapeCasts_S8192x6400_S4x2048x6400
      = result x w bias := by
  funext i
  obtain ⟨b, s, f, rfl⟩ : ∃ (b : Fin 4) (s : Fin 2048) (f : Fin 6400), i = ix3 b s f := ⟨i 0, i 1, i 2, eq_ix3 i⟩
  have hb : b.val < 4 := b.isLt
  have hs : s.val < 2048 := s.isLt
  let R : Fin 8192 := ⟨b.val * 2048 + s.val, by omega⟩
  rw [unflat_entry _ b s R rfl f]
  show (∑ k : Fin 1600, quantRow (fun k' => shapeCast S8192x1600 x shapeCasts_S4x2048x1600_S8192x1600 (ix2 R k')) k * wq w k f)
      + shapeCast S1x6400 bias shapeCasts_S6400_S1x6400 (ix2 (0 : Fin 1) f)
    = (∑ k : Fin 1600, quantRow (fun k' => x (ix3 b s k')) k * wq w k f) + bias (ix1 f)
  rw [shapeCast_a_1a_apply]
  refine congrArg (· + bias (ix1 f)) (Finset.sum_congr rfl fun k _ => ?_)
  exact congrArg (fun r => quantRow r k * wq w k f) (funext fun k' => flat_row x b s R rfl k')

end Cert.KernelIdeal.Value

end
-- ==== Proof.RefValue.lean ====
/-
  The reference's result, index by index, is the specification's array.

  The reference quantises the whole weight and the whole activation array at once — the row maximum is a host reduction
  over the last axis, the scale a column broadcast back over that axis — and contracts the two over the shared axis of
  1600 with one `dot_general`, then adds the bias broadcast over tokens. Read one operation at a time, entry `(k, f)` of
  the quantised weight depends on row `k` alone, entry `(b, s, k)` of the quantised activations on token `(b, s)`'s row
  alone, and the result at `(b, s, f)` is the sum over `k` of their products plus the bias at `f`.
-/
import proofs.«107254_j4226247819931_1_alg».proof.Proof.Gen.ReferenceIdeal.Read
import proofs.«107254_j4226247819931_1_alg».proof.Proof.Spec
import Idealize.ShloMosaic.PureOps.Ideal.Laws

set_option maxRecDepth 16384

noncomputable section

namespace Cert.ReferenceIdeal.RefValue

open Idealize.ShloMosaic Idealize.ShloMosaic.ValueIdx
open Cert.ReferenceIdeal Cert.ReferenceIdeal.Gen Cert.ReferenceIdeal.Read Cert.Quant

/-! ## The weight -/

theorem reducesW : S1600x6400.Reduces [1] S1600 := by decide

/-- Over row `k` of the weight, the index whose coordinate on the reduced axis is `f` is `(k, f)`. -/
theorem lift_w (k : Fin 1600) (f : Fin 6400) : reducesW.lift (ix1 k) f = ix2 k f := by
  funext c; apply Fin.ext
  match c with
  | ⟨0, _⟩ => rfl
  | ⟨1, _⟩ => rfl

/-- The host's row maximum of `|w|` at row `k`. -/
theorem rowMax_w (x1 : (⟨S1600x6400, .f32⟩ : BufTy).Contents (Elt Ideal)) (k : Fin 1600) :
    val_main_v1 (F := Ideal) x1 (ix1 k) = absMax (fun f => x1 (ix2 k f)) := by
  unfold val_main_v1
  refine (Host.reduce_eq_fold_single (s := S1600x6400) (t := S1600) (a := 1) (u := S_) (α := Ideal .f32)
    (FloatOps.maximumf (F := Ideal) (φ := .f32)) (val_main_v0 (F := Ideal) x1 : S1600x6400.Idx → Ideal .f32)
    (val_main_cst (F := Ideal) : S_.Idx → Ideal .f32) reducesTo_S1600x6400_S1600_d1 reducesW h_S_ (ix1 k)).trans ?_
  unfold absMax
  refine congrArg (fun g => Finset.fold max negInf g Finset.univ) (funext fun f => ?_)
  exact (congrArg (val_main_v0 (F := Ideal) x1) (lift_w k f)).trans rfl

/-- The scale of row `k` of the weight, in the column the reference keeps it in. -/
theorem scale_w (x1 : (⟨S1600x6400, .f32⟩ : BufTy).Contents (Elt Ideal)) (k : Fin 1600) :
    val_main_v6 (F := Ideal) x1 (ix2 k (0 : Fin 1)) = scale (absMax (fun f => x1 (ix2 k f))) := by
  have h2 : idx_main_v2 (ix2 k (0 : Fin 1)) = ix1 k := funext fun a => match a with | ⟨0, _⟩ => rfl
  rw [val_main_v6_apply, val_main_v5_apply, val_main_cst_1_apply, val_main_v4_apply, val_main_v2_apply, val_main_v3_apply,
    val_main_cst_0_apply, h2, rowMax_w]
  rfl

/-- The quantised weight at `(k, f)`. -/
theorem weight_apply (x1 : (⟨S1600x6400, .f32⟩ : BufTy).Contents (Elt Ideal)) (k : Fin 1600) (f : Fin 6400) :
    val_main_v13 (F := Ideal) x1 (ix2 k f) = wq x1 k f := by
  have h7 : idx_main_v7 (ix2 k f) = ix2 k (0 : Fin 1) := funext fun a => match a with | ⟨0, _⟩ => rfl | ⟨1, _⟩ => rfl
  have h12 : idx_main_v12 (ix2 k f) = ix2 k (0 : Fin 1) := funext fun a => match a with | ⟨0, _⟩ => rfl | ⟨1, _⟩ => rfl
  rw [val_main_v13_apply, val_main_v9_apply, val_main_v8_apply, val_main_v7_apply, h7, val_main_v12_apply, h12,
    val_main_v11_apply, val_main_v10_apply, val_main_cst_2_apply, scale_w]
  rfl

/-! ## The activations -/

theorem reducesX : S4x2048x1600.Reduces [2] S4x2048 := by decide

/-- Over token `(b, s)`, the index whose coordinate on the reduced axis is `k` is `(b, s, k)`. -/
theorem lift_x (b : Fin 4) (s : Fin 2048) (k : Fin 1600) : reducesX.lift (ix2 b s) k = ix3 b s k := by
  funext c; apply Fin.ext
  match c with
  | ⟨0, _⟩ => rfl
  | ⟨1, _⟩ => rfl
  | ⟨2, _⟩ => rfl

/-- The host's maximum of `|x|` over token `(b, s)`'s features. -/
theorem rowMax_x (x0 : (⟨S4x2048x1600, .f32⟩ : BufTy).Contents (Elt Ideal)) (b : Fin 4) (s : Fin 2048) :
    val_main_v15 (F := Ideal) x0 (ix2 b s) = absMax (fun k => x0 (ix3 b s k)) := by
  unfold val_main_v15
  refine (Host.reduce_eq_fold_single (s := S4x2048x1600) (t := S4x2048) (a := 2) (u := S_) (α := Ideal .f32)
    (FloatOps.maximumf (F := Ideal) (φ := .f32)) (val_main_v14 (F := Ideal) x0 : S4x2048x1600.Idx → Ideal .f32)
    (val_main_cst_3 (F := Ideal) : S_.Idx → Ideal .f32) reducesTo_S4x2048x1600_S4x2048_d2 reducesX h_S_ (ix2 b s)).trans ?_
  unfold absMax
  refine congrArg (fun g => Finset.fold max negInf g Finset.univ) (funext fun k => ?_)
  exact (congrArg (val_main_v14 (F := Ideal) x0) (lift_x b s k)).trans rfl

/-- The scale of token `(b, s)`. -/
theorem scale_x (x0 : (⟨S4x2048x1600, .f32⟩ : BufTy).Contents (Elt Ideal)) (b : Fin 4) (s : Fin 2048) :
    val_main_v20 (F := Ideal) x0 (ix3 b s (0 : Fin 1)) = scale (absMax (fun k => x0 (ix3 b s k))) := by
  have h16 : idx_main_v16 (ix3 b s (0 : Fin 1)) = ix2 b s := funext fun a => match a with | ⟨0, _⟩ => rfl | ⟨1, _⟩ => rfl
  rw [val_main_v20_apply, val_main_v19_apply, val_main_cst_5_apply, val_main_v18_apply, val_main_v16_apply, val_main_v17_apply,
    val_main_cst_4_apply, h16, rowMax_x]
  rfl

/-- The quantised activations at `(b, s, k)`. -/
theorem act_apply (x0 : (⟨S4x2048x1600, .f32⟩ : BufTy).Contents (Elt Ideal)) (b : Fin 4) (s : Fin 2048) (k : Fin 1600) :
    val_main_v27 (F := Ideal) x0 (ix3 b s k) = xq x0 b s k := by
  have h21 : idx_main_v21 (ix3 b s k) = ix3 b s (0 : Fin 1) :=
    funext fun a => match a with | ⟨0, _⟩ => rfl | ⟨1, _⟩ => rfl | ⟨2, _⟩ => rfl
  have h26 : idx_main_v26 (ix3 b s k) = ix3 b s (0 : Fin 1) :=
    funext fun a => match a with | ⟨0, _⟩ => rfl | ⟨1, _⟩ => rfl | ⟨2, _⟩ => rfl
  rw [val_main_v27_apply, val_main_v23_apply, val_main_v22_apply, val_main_v21_apply, h21, val_main_v26_apply, h26,
    val_main_v25_apply, val_main_v24_apply, val_main_cst_6_apply, scale_x]
  rfl

/-! ## The result -/

/-- THE REFERENCE'S VALUE: its last stage is the specification's result. -/
theorem result_eq (x0 : (⟨S4x2048x1600, .f32⟩ : BufTy).Contents (Elt Ideal)) (x1 : (⟨S1600x6400, .f32⟩ : BufTy).Contents (Elt Ideal))
    (x2 : (⟨S6400, .f32⟩ : BufTy).Contents (Elt Ideal)) :
    val_main_v31 (F := Ideal) x0 x1 x2 = result x0 x1 x2 := by
  funext i
  obtain ⟨b, s, f, rfl⟩ : ∃ (b : Fin 4) (s : Fin 2048) (f : Fin 6400), i = ix3 b s f := ⟨i 0, i 1, i 2, eq_ix3 i⟩
  have hl : ∀ k : Fin 1600, lidx_main_v28 (ix3 b s f) k = ix3 b s k := fun k =>
    funext fun a => match a with | ⟨0, _⟩ => rfl | ⟨1, _⟩ => rfl | ⟨2, _⟩ => rfl
  have hr : ∀ k : Fin 1600, ridx_main_v28 (ix3 b s f) k = ix2 k f := fun k =>
    funext fun a => match a with | ⟨0, _⟩ => rfl | ⟨1, _⟩ => rfl
  have hb : idx_main_v29 (idx_main_v30 (ix3 b s f)) = ix1 f := funext fun a => match a with | ⟨0, _⟩ => rfl
  rw [val_main_v31_apply, val_main_v28_apply, val_main_v30_apply, val_main_v29_apply, hb]
  show (∑ k : Fin 1600, val_main_v27 (F := Ideal) x0 (lidx_main_v28 (ix3 b s f) k) * val_main_v13 (F := Ideal) x1 (ridx_main_v28 (ix3 b s f) k))
      + x2 (ix1 f) = (∑ k : Fin 1600, xq x0 b s k * wq x1 k f) + x2 (ix1 f)
  refine congrArg (· + x2 (ix1 f)) (Finset.sum_congr rfl fun k _ => ?_)
  rw [hl k, hr k, act_apply, weight_apply]

end Cert.ReferenceIdeal.RefValue

end
-- ==== Proof.lean ====
/-
  Eight-bit symmetric fake-quantisation of a weight matrix (per row) and of activations (per token), followed by their
  product and a bias: the tiled kernel program against the whole-array reference, over the extended reals.

  Both programs compute, at every `(b, s, f)`,
      Σ_k  q(x[b, s, ·])(k) · q(w[k, ·])(f)  +  bias f,
  where `q` quantises a row `r` as `round_even (r · s) / (s + ε)` with `s = 127 / (max |r| + ε)` (Proof/Spec.lean). The
  kernel program does it in two tiled passes — the weight 200 rows at a time, then output tiles of 512 × 1280, each
  tile seeing whole rows of what it quantises — with reshapes in between; the reference does it on whole arrays. A
  row's quantisation reads that row only, so the tiling changes nothing, and a matrix product into a zero accumulator
  is the same sum as the host's contraction. No algebraic law beyond that is used, and the finiteness of the inputs is
  never needed.

  The kernel side: each body's tile at an entry (Proof/Tiles.lean over Proof/RowKernel.lean), tiles to whole arrays
  (Proof/Arrays.lean), the buffers' contents at the boundaries of @main (Proof/Boundary.lean), the run with the result
  buffer read (Proof/KernelRun.lean), and the renumbering by the reshapes (Proof/KernelValue.lean). The reference side:
  its generated run, read one operation at a time (Proof/RefValue.lean).
-/
import proofs.«107254_j4226247819931_1_alg».proof.Defs
import proofs.«107254_j4226247819931_1_alg».proof.Proof.Gen.Kernel
import proofs.«107254_j4226247819931_1_alg».proof.Proof.Gen.Kernel.Skeleton
import proofs.«107254_j4226247819931_1_alg».proof.Proof.Gen.Kernel.Launch
import proofs.«107254_j4226247819931_1_alg».proof.Proof.Gen.Kernel.Points
import proofs.«107254_j4226247819931_1_alg».proof.Proof.Gen.Kernel.Frame
import proofs.«107254_j4226247819931_1_alg».proof.Proof.Gen.KernelIdeal
import proofs.«107254_j4226247819931_1_alg».proof.Proof.Gen.KernelIdeal.Skeleton
import proofs.«107254_j4226247819931_1_alg».proof.Proof.Gen.KernelIdeal.Launch
import proofs.«107254_j4226247819931_1_alg».proof.Proof.Gen.KernelIdeal.Points
import proofs.«107254_j4226247819931_1_alg».proof.Proof.Gen.KernelIdeal.Frame
import proofs.«107254_j4226247819931_1_alg».proof.Proof.Gen.ReferenceIdeal
import proofs.«107254_j4226247819931_1_alg».proof.Proof.Gen.Pre_finite_inputs
import proofs.«107254_j4226247819931_1_alg».proof.Proof.Gen.ReferenceIdeal.Run
import proofs.«107254_j4226247819931_1_alg».proof.Proof.Gen.ReferenceIdeal.Read
import proofs.«107254_j4226247819931_1_alg».proof.Proof.KernelRun
import proofs.«107254_j4226247819931_1_alg».proof.Proof.Boundary
import proofs.«107254_j4226247819931_1_alg».proof.Proof.KernelValue
import proofs.«107254_j4226247819931_1_alg».proof.Proof.RefValue
import Idealize.ShloMosaic.Adequacy
import Idealize.ShloMosaic.Init

noncomputable section

namespace Cert.Proof

open Idealize.ShloMosaic Idealize.SL.Sem

/-- The word-level kernel program runs, faults nowhere and leaves its arguments as they were. -/
theorem frame_kernel : Cert.frame_Kernel := fun m ρ _ => Cert.Kernel.Gen.frame m ρ

/-- So does its idealisation. -/
theorem frame_kernelIdeal : Cert.frame_KernelIdeal := fun m ρ _ => Cert.KernelIdeal.Gen.frame m ρ

/-- So does the reference: its run, the result dropped. -/
theorem frame_reference : Cert.frame_ReferenceIdeal := fun m ρ _ =>
  (θ_run Cert.ReferenceIdeal.defs _ _).mono (fun _ h c => (h c).2) (Cert.ReferenceIdeal.Value.run (F := Ideal) m ρ)

/-- The idealisation rewrote no operation. -/
theorem preserves : Cert.preserves_Kernel_KernelIdeal := trivial

/-- From memories that agree on the three arguments both programs end with the specification's array of those arguments
    in their result buffers. -/
theorem algebraic : Cert.algebraic_KernelIdeal_ReferenceIdeal := by
  intro m ρ m' ρ' _ hagree
  refine ⟨fun c => Cert.Quant.result
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)), ?_, ?_⟩
  · refine (θ_run Cert.KernelIdeal.defs _ _).mono (fun r h c => ⟨(h c).1.trans ?_, (h c).2⟩)
      (Cert.KernelIdeal.RunResult.run_result (F := Ideal) m ρ)
    rw [Cert.KernelIdeal.Boundary.result_contents]
    exact Cert.KernelIdeal.Value.result_eq _ _ _
  · refine (θ_run Cert.ReferenceIdeal.defs _ _).mono (fun r h c => ⟨(h c).1.trans ?_, (h c).2⟩)
      (Cert.ReferenceIdeal.Value.run (F := Ideal) m' ρ')
    rw [Cert.ReferenceIdeal.Read.val_main_v31_eq, Cert.ReferenceIdeal.RefValue.result_eq, (hagree c).1, (hagree c).2.1,
      (hagree c).2.2]

theorem claim : Cert.Claim := ⟨Cert.Kernel.Gen.facts, Cert.KernelIdeal.Gen.facts, Cert.ReferenceIdeal.Gen.facts, Cert.Pre_finite_inputs.Gen.facts,
  frame_kernel, frame_kernelIdeal, frame_reference, preserves, algebraic⟩

end Cert.Proof

end
